-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x200 : S_.BroadcastsInDim S128x200 (![] : Fin 0 → Fin S128x200.rank)
  reducesTo_S128x200_S_d0_1 : S128x200.ReducesTo [0, 1] S_
  bcast_S_S200x300 : S_.BroadcastsInDim S200x300 (![] : Fin 0 → Fin S200x300.rank)
  reducesTo_S200x300_S_d0_1 : S200x300.ReducesTo [0, 1] S_
  bcast_S_S300x200 : S_.BroadcastsInDim S300x200 (![] : Fin 0 → Fin S300x200.rank)
  reducesTo_S300x200_S_d0_1 : S300x200.ReducesTo [0, 1] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S300x200 .f32) (main_arg5 : FVec F S200x100 .f32) (main_arg6 : FVec F S100 .f32) (main_v13 : IVec S_ 1) (main_v16 : IVec S200x300 1) : IVec S_ 1 :=
  let main_c_5 : IVec S_ 1 := constantI S_ 1 1#1
  let main_v17 : IVec S_ 1 := (fun x v => Host.reduce IntOp.andi x v reducesTo_S200x300_S_d0_1 h_S_) main_v16 main_c_5
  let main_v18 : IVec S_ 1 := andi main_v13 main_v17
  let main_v19 : FVec F S300x200 .f32 := Host.absf main_arg4
  let main_cst_6 : FVec F S_ .f32 := constant S_ .f32 0x7F800000#32
  let main_v20 : FVec F S300x200 .f32 := broadcastInDim S300x200 ![] bcast_S_S300x200 main_cst_6
  let main_v21 : IVec S300x200 1 := cmpf .olt main_v19 main_v20
  let main_c_7 : IVec S_ 1 := constantI S_ 1 1#1
  let main_v22 : IVec S_ 1 := (fun x v => Host.reduce IntOp.andi x v reducesTo_S300x200_S_d0_1 h_S_) main_v21 main_c_7
  let main_v23 : IVec S_ 1 := andi main_v18 main_v22
  let main_v24 : FVec F S200x100 .f32 := Host.absf main_arg5
  let main_cst_8 : FVec F S_ .f32 := constant S_ .f32 0x7F800000#32
  let main_v25 : FVec F S200x100 .f32 := broadcastInDim S200x100 ![] bcast_S_S200x100 main_cst_8
  let main_v26 : IVec S200x100 1 := cmpf .olt main_v24 main_v25
  let main_c_9 : IVec S_ 1 := constantI S_ 1 1#1
  let main_v27 : IVec S_ 1 := (fun x v => Host.reduce IntOp.andi x v reducesTo_S200x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x200 .f32) (main_arg3 : FVec F S200x300 .f32) (main_arg4 : FVec F S300x200 .f32) (main_arg5 : FVec F S200x100 .f32) (main_arg6 : FVec F S100 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x200 .f32 := Host.absf main_arg2
  let main_cst_2 : FVec F S_ .f32 := constant S_ .f32 0x7F800000#32
  let main_v10 : FVec F S128x200 .f32 := broadcastInDim S128x200 ![] bcast_S_S128x200 main_cst_2
  let main_v11 : IVec S128x200 1 := cmpf .olt main_v9 main_v10
  let main_c_3 : IVec S_ 1 := constantI S_ 1 1#1
  let main_v12 : IVec S_ 1 := (fun x v => Host.reduce IntOp.andi x v reducesTo_S128x200_S_d0_1 h_S_) main_v11 main_c_3
  let main_v13 : IVec S_ 1 := andi main_v8 main_v12
  let main_v14 : FVec F S200x300 .f32 := Host.absf main_arg3
  let main_cst_4 : FVec F S_ .f32 := constant S_ .f32 0x7F800000#32
  let main_v15 : FVec F S200x300 .f32 := broadcastInDim S200x300 ![] bcast_S_S200x300 main_cst_4
  let main_v16 : IVec S200x300 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S_ : Shape := ⟨0, ![]⟩
abbrev S128x256 : Shape := ⟨2, ![128, 256]⟩
abbrev S256x384 : Shape := ⟨2, ![256, 384]⟩
abbrev S384x256 : Shape := ⟨2, ![384, 256]⟩
abbrev S256x128 : Shape := ⟨2, ![256, 128]⟩
abbrev S128 : Shape := ⟨1, ![128]⟩
abbrev S1x128 : Shape := ⟨2, ![1, 128]⟩
abbrev S10000x256 : Shape := ⟨2, ![10000, 256]⟩
abbrev S10000x100 : Shape := ⟨2, ![10000, 100]⟩
abbrev S400x10000 : Shape := ⟨2, ![400, 10000]⟩
abbrev S400x256 : Shape := ⟨2, ![400, 256]⟩
abbrev S400x128 : Shape := ⟨2, ![400, 128]⟩
abbrev S400x384 : Shape := ⟨2, ![400, 384]⟩

abbrev nBuf : Space → Nat
  | .hbm => 27
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x200, .f32⟩
  | .hbm, ⟨3, _⟩ => ⟨S200x300, .f32⟩
  | .hbm, ⟨4, _⟩ => ⟨S300x200, .f32⟩
  | .hbm, ⟨5, _⟩ => ⟨S200x100, .f32⟩
  | .hbm, ⟨6, _⟩ => ⟨S100, .f32⟩
  | .hbm, ⟨7, _⟩ => ⟨S_, .i32⟩
  | .hbm, ⟨8, _⟩ => ⟨S_, .f32⟩
  | .hbm, ⟨9, _⟩ => ⟨S128x256, .f32⟩
  | .hbm, ⟨10, _⟩ => ⟨S_, .i32⟩
  | .hbm, ⟨11, _⟩ => ⟨S_, .f32⟩
  | .hbm, ⟨12, _⟩ => ⟨S256x384, .f32⟩
  | .hbm, ⟨13, _⟩ => ⟨S_, .i32⟩
  | .hbm, ⟨14, _⟩ => ⟨S_, .f32⟩
  | .hbm, ⟨15, _⟩ => ⟨S384x256, .f32⟩
  | .hbm, ⟨16, _⟩ => ⟨S_, .i32⟩
  | .hbm, ⟨17, _⟩ => ⟨S_, .f32⟩
  | .hbm, ⟨18, _⟩ => ⟨S256x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S10000x256, .f32⟩
  | .hbm, ⟨24, _⟩ => ⟨S10000x256, .f32⟩
  | .hbm, ⟨25, _⟩ => ⟨S10000x128, .f32⟩
  | .hbm, ⟨26, _⟩ => ⟨S10000x100, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S400x256, .f32⟩
  | .local _ .vmem, ⟨5, _⟩ => ⟨S400x256, .f32⟩
  | .local _ .vmem, ⟨6, _⟩ => ⟨S400x10000, .f32⟩
  | .local _ .vmem, ⟨7, _⟩ => ⟨S400x10000, .f32⟩
  | .local _ .vmem, ⟨8, _⟩ => ⟨S10000x256, .f32⟩
  | .local _ .vmem, ⟨9, _⟩ => ⟨S256x384, .f32⟩
  | .local _ .vmem, ⟨10, _⟩ => ⟨S384x256, .f32⟩
  | .local _ .vmem, ⟨11, _⟩ => ⟨S400x256, .f32⟩
  | .local _ .vmem, ⟨12, _⟩ => ⟨S400x256, .f32⟩
  | .local _ .vmem, ⟨13, _⟩ => ⟨S400x10000, .f32⟩
  | .local _ .vmem, ⟨14, _⟩ => ⟨S400x10000, .f32⟩
  | .local _ .vmem, ⟨15, _⟩ => ⟨S10000x256, .f32⟩
  | .local _ .vmem, ⟨16, _⟩ => ⟨S256x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v1 : Ref sig .tc := ⟨.hbm, 12, rfl⟩
abbrev main_call0_c_1 : Ref sig .tc := ⟨.hbm, 13, rfl⟩
abbrev main_call0_call2_v0 : Ref sig .tc := ⟨.hbm, 14, rfl⟩
abbrev main_call0_v2 : Ref sig .tc := ⟨.hbm, 15, rfl⟩
abbrev main_call0_c_2 : Ref sig .tc := ⟨.hbm, 16, rfl⟩
abbrev main_call0_call3_v0 : Ref sig .tc := ⟨.hbm, 17, rfl⟩
abbrev main_call0_v3 : Ref sig .tc := ⟨.hbm, 18, rfl⟩
abbrev main_call0_c_3 : Ref sig .tc := ⟨.hbm, 19, rfl⟩
abbrev main_call0_call4_v0 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  pads_S128x200_S128x256_000_0560 : S128x200.Pads (![0, 0] : Fin 2 → Nat) ![0, 56] ![0, 0] S128x256
  h_S_ : 0 < S_.numel
  pads_S200x300_S256x384_0560_0840 : S200x300.Pads (![0, 0] : Fin 2 → Nat) ![56, 84] ![0, 0] S256x384
  pads_S300x200_S384x256_0840_0560 : S300x200.Pads (![0, 0] : Fin 2 → Nat) ![84, 56] ![0, 0] S384x256
  pads_S200x100_S256x128_0560_0280 : S200x100.Pads (![0, 0] : Fin 2 → Nat) ![56, 28] ![0, 0] S256x128
  pads_S100_S128_0280 : S100.Pads (![0] : Fin 1 → Nat) ![28] ![0] S128
  shapeCasts_S128_S1x128 : S128.ShapeCasts S1x128
  slices_S10000x128_S10000x100_0_0 : S10000x128.Slices ![0, 0] S10000x100
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S400x256_S400x256_0_0 : ∀ a, (![0, 0] : Fin 2 → Nat) a + S400x256.size a ≤ S400x256.size a
  h_S400x256 : 0 < S400x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  dot_S400x256_S256x384_S400x384_1_0_0_1_n_n_wf : DotDims.WF S400x256 S256x384 S400x384 [1] [0] [0] [1] [] []
  dot_S400x384_S384x256_S400x256_1_0_0_1_n_n_wf : DotDims.WF S400x384 S384x256 S400x256 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x384.size a ≤ S256x384.size a
  hwx1_2 : ∀ i : grid1.Coords, EltTy.bits .f32 = 32 ∨ (Rect.block (s := S256x384) S256x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x256.size a ≤ S384x256.size a
  hwx1_3 : ∀ i : grid1.Coords, EltTy.bits .f32 = 32 ∨ (Rect.block (s := S384x256) S384x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .f32 = 32 ∨ (Rect.block (s := S10000x256) S400x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x384_S400x384_1_0_0_1_n_n : DotDims S400x256 S256x384 S400x384 where
  lhsContracting := [1]
  rhsContracting := [0]
  lhsNonContracting := [0]
  rhsNonContracting := [1]
  lhsBatch := []
  rhsBatch := []
  wf := dot_S400x256_S256x384_S400x384_1_0_0_1_n_n_wf
def dot_S400x384_S384x256_S400x256_1_0_0_1_n_n : DotDims S400x384 S384x256 S400x256 where
  lhsContracting := [1]
  rhsContracting := [0]
  lhsNonContracting := [0]
  rhsNonContracting := [1]
  lhsBatch := []
  rhsBatch := []
  wf := dot_S400x384_S384x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S256x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S384x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v7) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v5) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v8) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S10000x200 : Shape := ⟨2, ![10000, 200]⟩
abbrev S_ : Shape := ⟨0, ![]⟩
abbrev S10000x300 : Shape := ⟨2, ![10000, 300]⟩
abbrev S10000x100 : Shape := ⟨2, ![10000, 100]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x200, .f32⟩
  | .hbm, ⟨3, _⟩ => ⟨S200x300, .f32⟩
  | .hbm, ⟨4, _⟩ => ⟨S300x200, .f32⟩
  | .hbm, ⟨5, _⟩ => ⟨S200x100, .f32⟩
  | .hbm, ⟨6, _⟩ => ⟨S100, .f32⟩
  | .hbm, ⟨7, _⟩ => ⟨S10000x200, .f32⟩
  | .hbm, ⟨8, _⟩ => ⟨S10000x200, .f32⟩
  | .hbm, ⟨9, _⟩ => ⟨S_, .f32⟩
  | .hbm, ⟨10, _⟩ => ⟨S10000x200, .f32⟩
  | .hbm, ⟨11, _⟩ => ⟨S10000x200, .f32⟩
  | .hbm, ⟨12, _⟩ => ⟨S10000x300, .f32⟩
  | .hbm, ⟨13, _⟩ => ⟨S10000x300, .f32⟩
  | .hbm, ⟨14, _⟩ => ⟨S_, .f32⟩
  | .hbm, ⟨15, _⟩ => ⟨S10000x300, .f32⟩
  | .hbm, ⟨16, _⟩ => ⟨S10000x300, .f32⟩
  | .hbm, ⟨17, _⟩ => ⟨S10000x200, .f32⟩
  | .hbm, ⟨18, _⟩ => ⟨S10000x200, .f32⟩
  | .hbm, ⟨19, _⟩ => ⟨S_, .f32⟩
  | .hbm, ⟨20, _⟩ => ⟨S10000x200, .f32⟩
  | .hbm, ⟨21, _⟩ => ⟨S10000x200, .f32⟩
  | .hbm, ⟨22, _⟩ => ⟨S10000x100, .f32⟩
  | .hbm, ⟨23, _⟩ => ⟨S1x100, .f32⟩
  | .hbm, ⟨24, _⟩ => ⟨S10000x100, .f32⟩
  | .hbm, ⟨25, _⟩ => ⟨S10000x100, .f32⟩
  | .hbm, ⟨26, _⟩ => ⟨S_, .f32⟩
  | .hbm, ⟨27, _⟩ => ⟨S10000x100, .f32⟩
  | .hbm, ⟨28, _⟩ => ⟨S10000x100, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S10000x200 : S_.BroadcastsInDim S10000x200 (![] : Fin 0 → Fin S10000x200.rank)
  bcast_S_S10000x300 : S_.BroadcastsInDim S10000x300 (![] : Fin 0 → Fin S10000x300.rank)
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  bcast_S_S10000x100 : S_.BroadcastsInDim S10000x100 (![] : Fin 0 → Fin S10000x100.rank)
  dot_S10000x128_S128x200_S10000x200_1_0_0_1_n_n_wf : DotDims.WF S10000x128 S128x200 S10000x200 [1] [0] [0] [1] [] []
  dot_S10000x10000_S10000x200_S10000x200_1_0_0_1_n_n_wf : DotDims.WF S10000x10000 S10000x200 S10000x200 [1] [0] [0] [1] [] []
  dot_S10000x200_S200x300_S10000x300_1_0_0_1_n_n_wf : DotDims.WF S10000x200 S200x300 S10000x300 [1] [0] [0] [1] [] []
  dot_S10000x10000_S10000x300_S10000x300_1_0_0_1_n_n_wf : DotDims.WF S10000x10000 S10000x300 S10000x300 [1] [0] [0] [1] [] []
  dot_S10000x300_S300x200_S10000x200_1_0_0_1_n_n_wf : DotDims.WF S10000x300 S300x200 S10000x200 [1] [0] [0] [1] [] []
  dot_S10000x200_S200x100_S10000x100_1_0_0_1_n_n_wf : DotDims.WF S10000x200 S200x100 S10000x100 [1] [0] [0] [1] [] []

variable [Facts₀]

def dot_S10000x128_S128x200_S10000x200_1_0_0_1_n_n : DotDims S10000x128 S128x200 S10000x200 where
  lhsContracting := [1]
  rhsContracting := [0]
  lhsNonContracting := [0]
  rhsNonContracting := [1]
  lhsBatch := []
  rhsBatch := []
  wf := dot_S10000x128_S128x200_S10000x200_1_0_0_1_n_n_wf
def dot_S10000x10000_S10000x200_S10000x200_1_0_0_1_n_n : DotDims S10000x10000 S10000x200 S10000x200 where
  lhsContracting := [1]
  rhsContracting := [0]
  lhsNonContracting := [0]
  rhsNonContracting := [1]
  lhsBatch := []
  rhsBatch := []
  wf := dot_S10000x10000_S10000x200_S10000x200_1_0_0_1_n_n_wf
def dot_S10000x200_S200x300_S10000x300_1_0_0_1_n_n : DotDims S10000x200 S200x300 S10000x300 where
  lhsContracting := [1]
  rhsContracting := [0]
  lhsNonContracting := [0]
  rhsNonContracting := [1]
  lhsBatch := []
  rhsBatch := []
  wf := dot_S10000x200_S200x300_S10000x300_1_0_0_1_n_n_wf
def dot_S10000x10000_S10000x300_S10000x300_1_0_0_1_n_n : DotDims S10000x10000 S10000x300 S10000x300 where
  lhsContracting := [1]
  rhsContracting := [0]
  lhsNonContracting := [0]
  rhsNonContracting := [1]
  lhsBatch := []
  rhsBatch := []
  wf := dot_S10000x10000_S10000x300_S10000x300_1_0_0_1_n_n_wf
def dot_S10000x300_S300x200_S10000x200_1_0_0_1_n_n : DotDims S10000x300 S300x200 S10000x200 where
  lhsContracting := [1]
  rhsContracting := [0]
  lhsNonContracting := [0]
  rhsNonContracting := [1]
  lhsBatch := []
  rhsBatch := []
  wf := dot_S10000x300_S300x200_S10000x200_1_0_0_1_n_n_wf
def dot_S10000x200_S200x100_S10000x100_1_0_0_1_n_n : DotDims S10000x200 S200x100 S10000x100 where
  lhsContracting := [1]
  rhsContracting := [0]
  lhsNonContracting := [0]
  rhsNonContracting := [1]
  lhsBatch := []
  rhsBatch := []
  wf := dot_S10000x200_S200x100_S10000x100_1_0_0_1_n_n_wf

class Facts : Prop extends Facts₀ where

variable [Facts]
-- ==== Proof.GcnSpec.lean ====
/-
  The two programs as one vocabulary of matrix operations on extended reals.

  A graph-convolution forward pass over n = 10000 nodes: with A the dense n×n adjacency, X the n×128 features,
  and weights W1 (128×200), W2 (200×300), W3 (300×200), Wo (200×100), bias b (100),

      h1 = relu (A · (X · W1)),  h2 = relu (A · (h1 · W2)),  h3 = relu (A · (h2 · W3)),  z = relu (h3 · Wo + b).

  The reference computes exactly this.  The kernel pads every feature width with zeros up to a multiple of 128,
  associates each layer's two products the other way round where that makes the wide product narrower, and works
  one strip of 400 rows of A at a time:

      layer 1:  relu ((A · X) · W1')                  W1' = W1 with 56 zero columns
      layer 2:  relu ((A · h1') · W2') · W3'          W2', W3' = W2, W3 with zero rows and columns
      layer 3:  relu (relu (A · g2') · Wo' + b')      then the first 100 columns are kept.

  Every operation here is stated on index functions into the extended reals; a product is the plain sum over the
  contracted coordinate.  The row count of the left operand is a parameter, so that one definition reads both a
  400-row strip and the whole array.
-/
import Idealize.ShloMosaic.PureOps.Ideal.Laws
import Idealize.ShloMosaic.Lib.ValueIdx

noncomputable section

namespace Gcn

open Idealize.ShloMosaic Idealize.ShloMosaic.ValueIdx

/-- An a×b array of extended reals, indexed the way the programs index a rank-2 array. -/
abbrev Mat (a b : ℕ) : Type := (⟨2, ![a, b]⟩ : Shape).Idx → EReal

/-- A vector of n extended reals (a rank-1 array). -/
abbrev Row (n : ℕ) : Type := (⟨1, ![n]⟩ : Shape).Idx → EReal

/-- Rows-by-columns product: entry (r, c) is the sum over k of a[r,k] · b[k,c]. -/
def mm {M K N : ℕ} (a : Mat M K) (b : Mat K N) : Mat M N :=
  fun i => ∑ k : Fin K, a (ix2 (i 0) k) * b (ix2 k (i 1))

/-- Entrywise maximum with zero. -/
def relu {M N : ℕ} (a : Mat M N) : Mat M N := fun i => max (a i) 0

/-- Add the one-row array b to every row of a. -/
def addRow {M N : ℕ} (a : Mat M N) (b : Mat 1 N) : Mat M N := fun i => a i + b (ix2 0 (i 1))

/-- The a×b array w placed in the top-left corner of an a'×b' array of zeros. -/
def padZ {a b : ℕ} (a' b' : ℕ) (w : Mat a b) : Mat a' b' :=
  fun i => if h : (i 0).val < a ∧ (i 1).val < b then w (ix2 ⟨(i 0).val, h.1⟩ ⟨(i 1).val, h.2⟩) else 0

/-- The first b' columns of w. -/
def takeCols {a b : ℕ} (b' : ℕ) (hb : b' ≤ b) (w : Mat a b) : Mat a b' :=
  fun i => w (ix2 (i 0) ⟨(i 1).val, (idx2_lt1 i).trans_le hb⟩)

/-- A vector as a one-row array. -/
def rowOf {n : ℕ} (v : Row n) : Mat 1 n := fun i => v (ix1 (i 1))

/-- Every entry is a real number (neither infinity). -/
def Finite {S : Shape} (v : S.Idx → EReal) : Prop := ∀ i, ∃ r : ℝ, v i = (r : EReal)

/-! ## The kernel's three layers, on any number of rows of the adjacency -/

/-- relu ((A · X) · W). -/
def layer1 {M : ℕ} (A : Mat M 10000) (X : Mat 10000 128) (W : Mat 128 256) : Mat M 256 :=
  relu (mm (mm A X) W)

/-- relu ((A · H) · W2) · W3. -/
def layer2 {M : ℕ} (A : Mat M 10000) (H : Mat 10000 256) (W2 : Mat 256 384) (W3 : Mat 384 256) : Mat M 256 :=
  mm (relu (mm (mm A H) W2)) W3

/-- relu (relu (A · G) · Wo + b). -/
def layer3 {M : ℕ} (A : Mat M 10000) (G : Mat 10000 256) (Wo : Mat 256 128) (b : Mat 1 128) : Mat M 128 :=
  relu (addRow (mm (relu (mm A G)) Wo) b)

/-- What the kernel computes from its seven inputs: the weights zero-padded, the three layers, 100 columns kept. -/
def kernelSpec (X : Mat 10000 128) (A : Mat 10000 10000) (W1 : Mat 128 200) (W2 : Mat 200 300) (W3 : Mat 300 200)
    (Wo : Mat 200 100) (b : Row 100) : Mat 10000 100 :=
  takeCols 100 (by norm_num)
    (layer3 A (layer2 A (layer1 A X (padZ 128 256 W1)) (padZ 256 384 W2) (padZ 384 256 W3)) (padZ 256 128 Wo)
      (padZ 1 128 (rowOf b)))

/-- What the reference computes. -/
def refSpec (X : Mat 10000 128) (A : Mat 10000 10000) (W1 : Mat 128 200) (W2 : Mat 200 300) (W3 : Mat 300 200)
    (Wo : Mat 200 100) (b : Row 100) : Mat 10000 100 :=
  relu (addRow (mm (relu (mm A (mm (relu (mm A (mm (relu (mm A (mm X W1))) W2))) W3))) Wo) (rowOf b))

end Gcn

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.GcnOps.lean ====
/-
  The printed operations, read at the exact instance, are the matrix operations of the specification:
  a matrix-unit product into the zero accumulator and the host's dot product are the plain product `mm`;
  a maximum with a zero splat is `relu`; a host pad with zeros at the high end is `padZ`; a slice from the origin
  is `takeCols`; adding a broadcast one-row array is `addRow`.  Sizes are parameters throughout.
-/
import proofs.«157947_g18906446037451_cont_8to1_851_2_alg».proof.Proof.GcnSpec
import proofs.«157947_g18906446037451_cont_8to1_851_2_alg».proof.Proof.LibPlainDot
import Idealize.ShloMosaic.Lib.Pipeline.Value
import Idealize.ShloMosaic.Lib.KernelVsHost

noncomputable section

namespace Gcn

open Idealize.ShloMosaic Idealize.ShloMosaic.ValueIdx

/-! ## Products -/

/-- A kernel's matrix product into the zero accumulator is the plain product. -/
theorem matmul_eq_mm {M K N : ℕ} (D : DotDims (⟨2, ![M, K]⟩ : Shape) ⟨2, ![K, N]⟩ ⟨2, ![M, N]⟩)
    (hD : D = DotDims.plain M K N) (l : FVec Ideal (⟨2, ![M, K]⟩ : Shape) .f32) (r : FVec Ideal (⟨2, ![K, N]⟩ : Shape) .f32) :
    matmul D none l r (constant (⟨2, ![M, N]⟩ : Shape) .f32 0x00000000#32) = mm l r := by
  subst hD
  funext i
  exact plain_matmul_zero_apply none l r i

/-- The host's dot product is the plain product. -/
theorem dot_eq_mm {M K N : ℕ} (D : DotDims (⟨2, ![M, K]⟩ : Shape) ⟨2, ![K, N]⟩ ⟨2, ![M, N]⟩)
    (hD : D = DotDims.plain M K N) (l : FVec Ideal (⟨2, ![M, K]⟩ : Shape) .f32) (r : FVec Ideal (⟨2, ![K, N]⟩ : Shape) .f32) :
    Host.dotGeneral D none l r = mm l r := by
  subst hD
  funext i
  exact plain_dotGeneral_apply none .single l r i

/-! ## Maximum with zero -/

/-- The kernel's form: a maximum with the splat of the scalar zero. -/
theorem max_splat_eq_relu {M N : ℕ} (x : FVec Ideal (⟨2, ![M, N]⟩ : Shape) .f32) :
    maximumf x (broadcast (⟨2, ![M, N]⟩ : Shape) (Scalar.ofBits (F := Ideal) .f32 0x00000000#32)) = relu x := by
  funext i
  show max (x i) (Ideal.ofBits .f32 0x00000000#32) = max (x i) 0
  rw [Ideal.ofBits_zero_f32]

/-- The host's form: a maximum with the rank-0 zero broadcast to the shape. -/
theorem max_bcast_eq_relu {M N : ℕ} (x : FVec Ideal (⟨2, ![M, N]⟩ : Shape) .f32)
    (h : (⟨0, ![]⟩ : Shape).BroadcastsInDim (⟨2, ![M, N]⟩ : Shape) (![] : Fin 0 → Fin 2)) :
    maximumf x (broadcastInDim (⟨2, ![M, N]⟩ : Shape) ![] h (constant (F := Ideal) (⟨0, ![]⟩ : Shape) .f32 0x00000000#32)) = relu x := by
  funext i
  show max (x i) (Ideal.ofBits .f32 0x00000000#32) = max (x i) 0
  rw [Ideal.ofBits_zero_f32]

/-! ## Zero padding at the high end -/

/-- A host pad of a rank-2 array with no low and no interior padding, the padding value zero, is the array in the
    top-left corner of zeros. -/
theorem pad_eq_padZ {a b a' b' p q : ℕ} (x : Mat a b) {u : Shape} (v : u.Idx → EReal)
    (h : (⟨2, ![a, b]⟩ : Shape).Pads ![0, 0] ![p, q] ![0, 0] (⟨2, ![a', b']⟩ : Shape)) (hu : 0 < u.numel) (hv : ∀ k, v k = 0) :
    pad (⟨2, ![a', b']⟩ : Shape) ![0, 0] ![p, q] ![0, 0] x v h hu = padZ a' b' x := by
  funext j
  unfold padZ
  by_cases hin : (j 0).val < a ∧ (j 1).val < b
  · rw [dif_pos hin]
    refine pad_apply_of_inside _ _ _ x v h hu j _ fun d => ?_
    match d with
    | ⟨0, _⟩ => show (j 0).val = 0 + (j 0).val * (0 + 1); omega
    | ⟨1, _⟩ => show (j 1).val = 0 + (j 1).val * (0 + 1); omega
  · rw [dif_neg hin, ← hv (Shape.Idx.first hu)]
    by_cases h0 : (j 0).val < a
    · refine pad_apply_of_not_inside _ _ _ x v h hu j 1 fun hc => hin ⟨h0, ?_⟩
      have h3 : ((j 1).val - 0) / (0 + 1) < b := hc.2.2
      simpa using h3
    · refine pad_apply_of_not_inside _ _ _ x v h hu j 0 fun hc => h0 ?_
      have h3 : ((j 0).val - 0) / (0 + 1) < a := hc.2.2
      simpa using h3

/-- The integer zero converted to a float is the real zero. -/
theorem sitofp_zero (k : (⟨0, ![]⟩ : Shape).Idx) :
    (sitofp (F := Ideal) .f32 (constantI (⟨0, ![]⟩ : Shape) 32 0#32)) k = 0 := by
  show (((0#32 : BitVec 32).toInt : ℝ) : EReal) = 0
  simp

/-- A vector padded with zeros at the high end and reshaped to one row is the one-row array of the vector, padded. -/
theorem reshape_pad_eq_padZ {n n' q : ℕ} (x : Row n) {u : Shape} (v : u.Idx → EReal)
    (h : (⟨1, ![n]⟩ : Shape).Pads ![0] ![q] ![0] (⟨1, ![n']⟩ : Shape)) (hu : 0 < u.numel) (hv : ∀ k, v k = 0)
    (hs : (⟨1, ![n']⟩ : Shape).ShapeCasts (⟨2, ![1, n']⟩ : Shape)) :
    shapeCast (⟨2, ![1, n']⟩ : Shape) (pad (⟨1, ![n']⟩ : Shape) ![0] ![q] ![0] x v h hu) hs = padZ 1 n' (rowOf x) := by
  funext j
  have hj0 : (j 0).val = 0 := by have := idx2_lt0 j; omega
  refine (shapeCast_apply _ hs j (ix1 (j 1)) ?_).trans ?_
  · rw [Shape.rowMajor_val_one, Shape.rowMajor_val_two]
    show (j 1).val = (j 0).val * n' + (j 1).val
    rw [hj0]; omega
  unfold padZ rowOf
  by_cases hin : (j 1).val < n
  · rw [dif_pos ⟨by omega, hin⟩]
    refine pad_apply_of_inside _ _ _ x v h hu _ _ fun d => ?_
    match d with
    | ⟨0, _⟩ => show (j 1).val = 0 + (j 1).val * (0 + 1); omega
  · rw [dif_neg (fun hc => hin hc.2), ← hv (Shape.Idx.first hu)]
    refine pad_apply_of_not_inside _ _ _ x v h hu _ 0 fun hc => hin ?_
    have h3 : ((j 1).val - 0) / (0 + 1) < n := hc.2.2
    simpa using h3

/-! ## Columns kept from the origin -/

theorem slice_eq_takeCols {a b b' : ℕ} (hb : b' ≤ b) (x : Mat a b)
    (h : (⟨2, ![a, b]⟩ : Shape).Slices ![0, 0] (⟨2, ![a, b']⟩ : Shape)) :
    extractStridedSlice (⟨2, ![a, b']⟩ : Shape) ![0, 0] x h = takeCols b' hb x := by
  funext j
  unfold takeCols
  refine extractStridedSlice_apply _ x h j _ fun d => ?_
  match d with
  | ⟨0, _⟩ => show (j 0).val = 0 + (j 0).val; omega
  | ⟨1, _⟩ => show (j 1).val = 0 + (j 1).val; omega

/-! ## A one-row array added to every row -/

/-- The kernel's form: the one-row array broadcast along the rows, then added. -/
theorem add_broadcastTo_eq_addRow {M N : ℕ} (x : FVec Ideal (⟨2, ![M, N]⟩ : Shape) .f32) (bb : FVec Ideal (⟨2, ![1, N]⟩ : Shape) .f32)
    (h : (⟨2, ![1, N]⟩ : Shape).Broadcasts (⟨2, ![M, N]⟩ : Shape)) :
    addf x (broadcastTo (⟨2, ![M, N]⟩ : Shape) bb h) = addRow x bb := by
  funext i
  show x i + broadcastTo (⟨2, ![M, N]⟩ : Shape) bb h i = x i + bb (ix2 0 (i 1))
  refine congrArg (x i + ·) (broadcastTo_apply bb h i _ fun d => ?_)
  match d with
  | ⟨0, _⟩ => show (0 : ℕ) = if (1 : ℕ) = 1 then 0 else _; rw [if_pos rfl]
  | ⟨1, _⟩ =>
    show (i 1).val = if N = 1 then 0 else (i 1).val
    split_ifs with h1
    · have := idx2_lt1 i; omega
    · rfl

/-- The host's form: the vector broadcast to one row, that to all rows, then added. -/
theorem add_bcast_eq_addRow {M N : ℕ} (x : FVec Ideal (⟨2, ![M, N]⟩ : Shape) .f32) (v : Row N)
    (h1 : (⟨1, ![N]⟩ : Shape).BroadcastsInDim (⟨2, ![1, N]⟩ : Shape) (![1] : Fin 1 → Fin 2))
    (h2 : (⟨2, ![1, N]⟩ : Shape).BroadcastsInDim (⟨2, ![M, N]⟩ : Shape) (![0, 1] : Fin 2 → Fin 2)) :
    addf x (broadcastInDim (⟨2, ![M, N]⟩ : Shape) ![0, 1] h2 (broadcastInDim (⟨2, ![1, N]⟩ : Shape) ![1] h1 v)) = addRow x (rowOf v) := by
  funext i
  show x i + broadcastInDim (⟨2, ![M, N]⟩ : Shape) ![0, 1] h2 (broadcastInDim (⟨2, ![1, N]⟩ : Shape) ![1] h1 v) i = x i + v (ix1 (i 1))
  refine congrArg (x i + ·) ?_
  refine (broadcastInDim_apply _ h2 _ i (ix2 0 (i 1)) fun d => ?_).trans (broadcastInDim_apply _ h1 v (ix2 0 (i 1)) (ix1 (i 1)) fun d => ?_)
  · match d with
    | ⟨0, _⟩ => show (0 : ℕ) = if (1 : ℕ) = 1 then 0 else _; rw [if_pos rfl]
    | ⟨1, _⟩ =>
      show (i 1).val = if N = 1 then 0 else (i 1).val
      split_ifs with h1
      · have := idx2_lt1 i; omega
      · rfl
  · match d with
    | ⟨0, _⟩ =>
      show (i 1).val = if N = 1 then 0 else (i 1).val
      split_ifs with h1
      · have := idx2_lt1 i; omega
      · rfl

end Gcn

end
-- ==== Proof.KernelLayer1.lean ====
/-
  Layer 1 of the kernel as one function of the arrays its region finds.
  At grid point t the body loads rows 400t … 400t+399 of the adjacency (all 10000 columns), the whole feature
  array and the whole padded weight, and stores relu ((A_strip · X) · W) into rows 400t … 400t+399 of the output.
  Each entry of that strip depends on the adjacency only through its own row, so the strip is the same rows of
  `Gcn.layer1` of the WHOLE adjacency; the 25 strips tile the 10000 rows, so the array ends holding `Gcn.layer1`.
-/
import proofs.«157947_g18906446037451_cont_8to1_851_2_alg».proof.Proof.Gen.KernelIdeal.Frame
import proofs.«157947_g18906446037451_cont_8to1_851_2_alg».proof.Proof.GcnOps
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem Gcn
open Idealize.ShloMosaic.Pipeline (Dat)
open Facts₀

variable (V : (c : Dev nD) → (b : Ref sig .tc) → Buf (Elt Ideal) ((c : Thread nD τ).loc b))

theorem origin : (![0, 0] : Fin 2 → Nat) = fun _ => 0 := funext fun a => by fin_cases a <;> rfl

theorem dotAX : dot_S400x10000_S10000x128_S400x128_1_0_0_1_n_n = DotDims.plain 400 10000 128 := rfl
theorem dotW : dot_S400x128_S128x256_S400x256_1_0_0_1_n_n = DotDims.plain 400 128 256 := rfl

/-- The body's stored value is layer 1 of the three loaded blocks. -/
theorem pay_eq (x0 : Vec Ideal S400x10000 .f32) (x1 : Vec Ideal S10000x128 .f32) (x2 : Vec Ideal S128x256 .f32) :
    k0_pay1 x0 x1 x2 = layer1 x0 x1 x2 := by
  unfold k0_pay1 layer1
  dsimp only
  rw [shapeCast_self, matmul_eq_mm _ dotAX, matmul_eq_mm _ dotW, max_splat_eq_relu]

/-- Layer 1 at an entry reads the adjacency only in that entry's row, the weight only in its column. -/
theorem layer1_congr {M M' : ℕ} (a : Mat M 10000) (a' : Mat M' 10000) (x x' : Mat 10000 128) (w w' : Mat 128 256)
    (i : (⟨2, ![M, 256]⟩ : Shape).Idx) (i' : (⟨2, ![M', 256]⟩ : Shape).Idx)
    (ha : ∀ l : Fin 10000, a (ix2 (i 0) l) = a' (ix2 (i' 0) l)) (hx : ∀ (l : Fin 10000) (k : Fin 128), x (ix2 l k) = x' (ix2 l k))
    (hw : ∀ k : Fin 128, w (ix2 k (i 1)) = w' (ix2 k (i' 1))) :
    layer1 a x w i = layer1 a' x' w' i' := by
  show max (∑ k : Fin 128, (∑ l : Fin 10000, a (ix2 (i 0) l) * x (ix2 l k)) * w (ix2 k (i 1))) 0
    = max (∑ k : Fin 128, (∑ l : Fin 10000, a' (ix2 (i' 0) l) * x' (ix2 l k)) * w' (ix2 k (i' 1))) 0
  simp only [ha, hx, hw]

/-- The index maps over the grid: the adjacency strip and the output strip move together, one block per point;
    the other operands stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows 400t … 400t+399 of layer 1 of the arrays as the region finds them. -/
theorem flushed_eq (c : Dev nD) (t : Fin cfg0.N) :
    (dat0 V c).flushed 3 t = ((cfg0.win 3).blk t).view.read (Elt Ideal) (layer1 (V c main_arg1) (V c main_arg0) (V c main_call0_v0)) := by
  show (cfg0.win 3).cut (grid0.coords t) ((dat0 V c).after 3 t) = _
  rw [after0_3]
  unfold out0_3
  rw [View.canon_unit_zero origin]
  simp only [View.ld_unit_zero (S := S400x10000) origin, View.ld_unit_zero (S := S10000x128) origin, View.ld_unit_zero (S := S128x256) origin]
  rw [pay_eq]
  obtain ⟨e00, e01, e10, e11, e20, e21, e30, e31⟩ := idx_facts t
  funext j
  show layer1 (iblk0 V c 0 t) (iblk0 V c 1 t) (iblk0 V c 2 t) j
    = layer1 (V c main_arg1) (V c main_arg0) (V c main_call0_v0) (((cfg0.win 3).blk t).view.emb j)
  refine layer1_congr _ _ _ _ _ _ _ _ (fun l => ?_) (fun l k => ?_) (fun k => ?_)
  · show V c main_arg1 (((cfg0.win 0).blk t).view.emb (ix2 (j 0) l)) = V c main_arg1 (ix2 ((((cfg0.win 3).blk t).view.emb j) 0) l)
    refine congrArg _ (funext fun a => Fin.ext ?_)
    match a with
    | ⟨0, _⟩ => show win0_0.index t (0 : Fin 2) * 400 + 1 * (j 0).val = win0_3.index t (0 : Fin 2) * 400 + 1 * (j 0).val; omega
    | ⟨1, _⟩ => show win0_0.index t (1 : Fin 2) * 10000 + 1 * l.val = l.val; omega
  · show V c main_arg0 (((cfg0.win 1).blk t).view.emb (ix2 l k)) = V c main_arg0 (ix2 l k)
    refine congrArg _ (funext fun a => Fin.ext ?_)
    match a with
    | ⟨0, _⟩ => show win0_1.index t (0 : Fin 2) * 10000 + 1 * l.val = l.val; omega
    | ⟨1, _⟩ => show win0_1.index t (1 : Fin 2) * 128 + 1 * k.val = k.val; omega
  · show V c main_call0_v0 (((cfg0.win 2).blk t).view.emb (ix2 k (j 1))) = V c main_call0_v0 (ix2 k ((((cfg0.win 3).blk t).view.emb j) 1))
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * (j 1).val = win0_3.index t (1 : Fin 2) * 256 + 1 * (j 1).val; omega

/-- An index is in point t's output block iff each coordinate is in the block's range. -/
theorem mem_blk (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_call0_v6).slice (win0_3.rect t)).set ↔ _
  rw [View.set_slice_whole, Rect.mem_set_unit]
  exact Iff.rfl

/-- Every row lies in some point's strip: row r in the strip of point r / 400. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : (i 0).val / 400 < cfg0.N := by rw [show cfg0.N = 25 from N_0]; omega
  refine ⟨⟨(i 0).val / 400, hN⟩, flush0_3 _, ?_⟩
  rw [mem_blk]
  obtain ⟨-, -, -, -, -, -, e30, e31⟩ := idx_facts ⟨(i 0).val / 400, hN⟩
  intro a
  match a with
  | ⟨0, _⟩ =>
    show win0_3.index ⟨(i 0).val / 400, hN⟩ (0 : Fin 2) * 400 ≤ (i 0).val ∧ (i 0).val < win0_3.index ⟨(i 0).val / 400, hN⟩ (0 : Fin 2) * 400 + 400
    rw [e30]; show (i 0).val / 400 * 400 ≤ (i 0).val ∧ (i 0).val < (i 0).val / 400 * 400 + 400; omega
  | ⟨1, _⟩ =>
    show win0_3.index ⟨(i 0).val / 400, hN⟩ (1 : Fin 2) * 256 ≤ (i 1).val ∧ (i 1).val < win0_3.index ⟨(i 0).val / 400, hN⟩ (1 : Fin 2) * 256 + 256
    rw [e31]; omega

/-- After the region its output array holds layer 1 of the arrays the region found. -/
theorem final (c : Dev nD) :
    (dat0 V c).arrAt 3 cfg0.N = layer1 (V c main_arg1) (V c main_arg0) (V c main_call0_v0) :=
  (dat0 V c).arrAt_eq_of_cover 3 _ (fun t _ => flushed_eq V c t) cover

end Cert.KernelIdeal.Layer1

end
-- ==== Proof.KernelLayer2.lean ====
/-
  Layer 2 of the kernel as one function of the arrays its region finds.
  At grid point t the body loads rows 400t … 400t+399 of the adjacency, the whole previous activations and both
  padded weights whole, and stores relu ((A_strip · H) · W2) · W3 into rows 400t … 400t+399 of the output.
  An entry of the strip depends on the adjacency only through its own row, so the strip is the same rows of
  `Gcn.layer2` of the whole adjacency; the 25 strips tile the 10000 rows.
-/
import proofs.«157947_g18906446037451_cont_8to1_851_2_alg».proof.Proof.Gen.KernelIdeal.Frame
import proofs.«157947_g18906446037451_cont_8to1_851_2_alg».proof.Proof.GcnOps
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem Gcn
open Idealize.ShloMosaic.Pipeline (Dat)
open Facts₀

variable (V : (c : Dev nD) → (b : Ref sig .tc) → Buf (Elt Ideal) ((c : Thread nD τ).loc b))

theorem origin : (![0, 0] : Fin 2 → Nat) = fun _ => 0 := funext fun a => by fin_cases a <;> rfl

theorem dotAH : dot_S400x10000_S10000x256_S400x256_1_0_0_1_n_n = DotDims.plain 400 10000 256 := rfl
theorem dotW2 : dot_S400x256_S256x384_S400x384_1_0_0_1_n_n = DotDims.plain 400 256 384 := rfl
theorem dotW3 : dot_S400x384_S384x256_S400x256_1_0_0_1_n_n = DotDims.plain 400 384 256 := rfl

/-- The body's stored value is layer 2 of the four loaded blocks. -/
theorem pay_eq (x0 : Vec Ideal S400x10000 .f32) (x1 : Vec Ideal S10000x256 .f32) (x2 : Vec Ideal S256x384 .f32) (x3 : Vec Ideal S384x256 .f32) :
    k1_pay1 x0 x1 x2 x3 = layer2 x0 x1 x2 x3 := by
  unfold k1_pay1 layer2
  dsimp only
  rw [shapeCast_self, shapeCast_self, shapeCast_self, matmul_eq_mm _ dotAH, matmul_eq_mm _ dotW2, max_splat_eq_relu, matmul_eq_mm _ dotW3]

/-- Layer 2 at an entry reads the adjacency only in that entry's row, the last weight only in its column. -/
theorem layer2_congr {M M' : ℕ} (a : Mat M 10000) (a' : Mat M' 10000) (x x' : Mat 10000 256) (w w' : Mat 256 384) (u u' : Mat 384 256)
    (i : (⟨2, ![M, 256]⟩ : Shape).Idx) (i' : (⟨2, ![M', 256]⟩ : Shape).Idx)
    (ha : ∀ l : Fin 10000, a (ix2 (i 0) l) = a' (ix2 (i' 0) l)) (hx : ∀ (l : Fin 10000) (d : Fin 256), x (ix2 l d) = x' (ix2 l d))
    (hw : ∀ (d : Fin 256) (e : Fin 384), w (ix2 d e) = w' (ix2 d e)) (hu : ∀ e : Fin 384, u (ix2 e (i 1)) = u' (ix2 e (i' 1))) :
    layer2 a x w u i = layer2 a' x' w' u' i' := by
  show (∑ e : Fin 384, max (∑ d : Fin 256, (∑ l : Fin 10000, a (ix2 (i 0) l) * x (ix2 l d)) * w (ix2 d e)) 0 * u (ix2 e (i 1)))
    = ∑ e : Fin 384, max (∑ d : Fin 256, (∑ l : Fin 10000, a' (ix2 (i' 0) l) * x' (ix2 l d)) * w' (ix2 d e)) 0 * u' (ix2 e (i' 1))
  simp only [ha, hx, hw, hu]

/-- The index maps over the grid: the adjacency strip and the output strip move together, one block per point;
    the other operands stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is rows 400t … 400t+399 of layer 2 of the arrays as the region finds them. -/
theorem flushed_eq (c : Dev nD) (t : Fin cfg1.N) :
    (dat1 V c).flushed 4 t = ((cfg1.win 4).blk t).view.read (Elt Ideal)
      (layer2 (V c main_arg1) (V c main_call0_v6) (V c main_call0_v1) (V c main_call0_v2)) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x256) origin, View.ld_unit_zero (S := S256x384) origin,
    View.ld_unit_zero (S := S384x256) origin]
  rw [pay_eq]
  obtain ⟨e00, e01, e10, e11, e20, e21, e30, e31, e40, e41⟩ := idx_facts t
  funext j
  show layer2 (iblk1 V c 0 t) (iblk1 V c 1 t) (iblk1 V c 2 t) (iblk1 V c 3 t) j
    = layer2 (V c main_arg1) (V c main_call0_v6) (V c main_call0_v1) (V c main_call0_v2) (((cfg1.win 4).blk t).view.emb j)
  refine layer2_congr _ _ _ _ _ _ _ _ _ _ (fun l => ?_) (fun l d => ?_) (fun d e => ?_) (fun e => ?_)
  · show V c main_arg1 (((cfg1.win 0).blk t).view.emb (ix2 (j 0) l)) = V c main_arg1 (ix2 ((((cfg1.win 4).blk t).view.emb j) 0) l)
    refine congrArg _ (funext fun a => Fin.ext ?_)
    match a with
    | ⟨0, _⟩ => show win1_0.index t (0 : Fin 2) * 400 + 1 * (j 0).val = win1_4.index t (0 : Fin 2) * 400 + 1 * (j 0).val; omega
    | ⟨1, _⟩ => show win1_0.index t (1 : Fin 2) * 10000 + 1 * l.val = l.val; omega
  · show V c main_call0_v6 (((cfg1.win 1).blk t).view.emb (ix2 l d)) = V c main_call0_v6 (ix2 l d)
    refine congrArg _ (funext fun a => Fin.ext ?_)
    match a with
    | ⟨0, _⟩ => show win1_1.index t (0 : Fin 2) * 10000 + 1 * l.val = l.val; omega
    | ⟨1, _⟩ => show win1_1.index t (1 : Fin 2) * 256 + 1 * d.val = d.val; omega
  · show V c main_call0_v1 (((cfg1.win 2).blk t).view.emb (ix2 d e)) = V c main_call0_v1 (ix2 d e)
    refine congrArg _ (funext fun a => Fin.ext ?_)
    match a with
    | ⟨0, _⟩ => show win1_2.index t (0 : Fin 2) * 256 + 1 * d.val = d.val; omega
    | ⟨1, _⟩ => show win1_2.index t (1 : Fin 2) * 384 + 1 * e.val = e.val; omega
  · show V c main_call0_v2 (((cfg1.win 3).blk t).view.emb (ix2 e (j 1))) = V c main_call0_v2 (ix2 e ((((cfg1.win 4).blk t).view.emb j) 1))
    refine congrArg _ (funext fun a => Fin.ext ?_)
    match a with
    | ⟨0, _⟩ => show win1_3.index t (0 : Fin 2) * 384 + 1 * e.val = e.val; omega
    | ⟨1, _⟩ => show win1_3.index t (1 : Fin 2) * 256 + 1 * (j 1).val = win1_4.index t (1 : Fin 2) * 256 + 1 * (j 1).val; omega

/-- An index is in point t's output block iff each coordinate is in the block's range. -/
theorem mem_blk (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_call0_v7).slice (win1_4.rect t)).set ↔ _
  rw [View.set_slice_whole, Rect.mem_set_unit]
  exact Iff.rfl

/-- Every row lies in some point's strip: row r in the strip of point r / 400. -/
theorem cover (i : S10000x256.Idx) : ∃ t : Fin cfg1.N, (cfg1.win 4).flush t = true ∧ i ∈ ((cfg1.win 4).blk t).view.set := by
  have hi0 : (i 0).val < 10000 := (i 0).isLt
  have hi1 : (i 1).val < 256 := (i 1).isLt
  have hN : (i 0).val / 400 < cfg1.N := by rw [show cfg1.N = 25 from N_1]; omega
  refine ⟨⟨(i 0).val / 400, hN⟩, flush1_4 _, ?_⟩
  rw [mem_blk]
  obtain ⟨-, -, -, -, -, -, -, -, e40, e41⟩ := idx_facts ⟨(i 0).val / 400, hN⟩
  intro a
  match a with
  | ⟨0, _⟩ =>
    show win1_4.index ⟨(i 0).val / 400, hN⟩ (0 : Fin 2) * 400 ≤ (i 0).val ∧ (i 0).val < win1_4.index ⟨(i 0).val / 400, hN⟩ (0 : Fin 2) * 400 + 400
    rw [e40]; show (i 0).val / 400 * 400 ≤ (i 0).val ∧ (i 0).val < (i 0).val / 400 * 400 + 400; omega
  | ⟨1, _⟩ =>
    show win1_4.index ⟨(i 0).val / 400, hN⟩ (1 : Fin 2) * 256 ≤ (i 1).val ∧ (i 1).val < win1_4.index ⟨(i 0).val / 400, hN⟩ (1 : Fin 2) * 256 + 256
    rw [e41]; omega

/-- After the region its output array holds layer 2 of the arrays the region found. -/
theorem final (c : Dev nD) :
    (dat1 V c).arrAt 4 cfg1.N = layer2 (V c main_arg1) (V c main_call0_v6) (V c main_call0_v1) (V c main_call0_v2) :=
  (dat1 V c).arrAt_eq_of_cover 4 _ (fun t _ => flushed_eq V c t) cover

end Cert.KernelIdeal.Layer2

end
-- ==== Proof.KernelLayer3.lean ====
/-
  Layer 3 of the kernel as one function of the arrays its region finds.
  At grid point t the body loads rows 400t … 400t+399 of the adjacency, the whole previous activations, the padded
  output weight and the padded bias row, and stores relu (relu (A_strip · G) · Wo + b) into rows 400t … 400t+399 of
  the output.  An entry of the strip depends on the adjacency only through its own row, so the strip is the same rows
  of `Gcn.layer3` of the whole adjacency; the 25 strips tile the 10000 rows.
-/
import proofs.«157947_g18906446037451_cont_8to1_851_2_alg».proof.Proof.Gen.KernelIdeal.Frame
import proofs.«157947_g18906446037451_cont_8to1_851_2_alg».proof.Proof.GcnOps
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem Gcn
open Idealize.ShloMosaic.Pipeline (Dat)
open Facts₀

variable (V : (c : Dev nD) → (b : Ref sig .tc) → Buf (Elt Ideal) ((c : Thread nD τ).loc b))

theorem origin : (![0, 0] : Fin 2 → Nat) = fun _ => 0 := funext fun a => by fin_cases a <;> rfl

theorem dotAG : dot_S400x10000_S10000x256_S400x256_1_0_0_1_n_n = DotDims.plain 400 10000 256 := rfl
theorem dotWo : dot_S400x256_S256x128_S400x128_1_0_0_1_n_n = DotDims.plain 400 256 128 := rfl

/-- The body's stored value is layer 3 of the four loaded blocks. -/
theorem pay_eq (x0 : Vec Ideal S400x10000 .f32) (x1 : Vec Ideal S10000x256 .f32) (x2 : Vec Ideal S256x128 .f32) (x3 : Vec Ideal S1x128 .f32) :
    k2_pay1 x0 x1 x2 x3 = layer3 x0 x1 x2 x3 := by
  unfold k2_pay1 layer3
  dsimp only
  rw [shapeCast_self, shapeCast_self, shapeCast_self, matmul_eq_mm _ dotAG, max_splat_eq_relu, matmul_eq_mm _ dotWo,
    add_broadcastTo_eq_addRow, max_splat_eq_relu]

/-- Layer 3 at an entry reads the adjacency only in that entry's row, the weight and the bias only in its column. -/
theorem layer3_congr {M M' : ℕ} (a : Mat M 10000) (a' : Mat M' 10000) (x x' : Mat 10000 256) (w w' : Mat 256 128) (b b' : Mat 1 128)
    (i : (⟨2, ![M, 128]⟩ : Shape).Idx) (i' : (⟨2, ![M', 128]⟩ : Shape).Idx)
    (ha : ∀ l : Fin 10000, a (ix2 (i 0) l) = a' (ix2 (i' 0) l)) (hx : ∀ (l : Fin 10000) (d : Fin 256), x (ix2 l d) = x' (ix2 l d))
    (hw : ∀ d : Fin 256, w (ix2 d (i 1)) = w' (ix2 d (i' 1))) (hb : b (ix2 0 (i 1)) = b' (ix2 0 (i' 1))) :
    layer3 a x w b i = layer3 a' x' w' b' i' := by
  show max ((∑ d : Fin 256, max (∑ l : Fin 10000, a (ix2 (i 0) l) * x (ix2 l d)) 0 * w (ix2 d (i 1))) + b (ix2 0 (i 1))) 0
    = max ((∑ d : Fin 256, max (∑ l : Fin 10000, a' (ix2 (i' 0) l) * x' (ix2 l d)) 0 * w' (ix2 d (i' 1))) + b' (ix2 0 (i' 1))) 0
  simp only [ha, hx, hw, hb]

/-- The index maps over the grid: the adjacency strip and the output strip move together, one block per point;
    the other operands stay at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is rows 400t … 400t+399 of layer 3 of the arrays as the region finds them. -/
theorem flushed_eq (c : Dev nD) (t : Fin cfg2.N) :
    (dat2 V c).flushed 4 t = ((cfg2.win 4).blk t).view.read (Elt Ideal)
      (layer3 (V c main_arg1) (V c main_call0_v7) (V c main_call0_v3) (V c main_call0_v5)) := by
  show (cfg2.win 4).cut (grid2.coords t) ((dat2 V c).after 4 t) = _
  rw [after2_4]
  unfold out2_4
  rw [View.canon_unit_zero origin]
  simp only [View.ld_unit_zero (S := S400x10000) origin, View.ld_unit_zero (S := S10000x256) origin, View.ld_unit_zero (S := S256x128) origin,
    View.ld_unit_zero (S := S1x128) origin]
  rw [pay_eq]
  obtain ⟨e00, e01, e10, e11, e20, e21, e30, e31, e40, e41⟩ := idx_facts t
  funext j
  show layer3 (iblk2 V c 0 t) (iblk2 V c 1 t) (iblk2 V c 2 t) (iblk2 V c 3 t) j
    = layer3 (V c main_arg1) (V c main_call0_v7) (V c main_call0_v3) (V c main_call0_v5) (((cfg2.win 4).blk t).view.emb j)
  refine layer3_congr _ _ _ _ _ _ _ _ _ _ (fun l => ?_) (fun l d => ?_) (fun d => ?_) ?_
  · show V c main_arg1 (((cfg2.win 0).blk t).view.emb (ix2 (j 0) l)) = V c main_arg1 (ix2 ((((cfg2.win 4).blk t).view.emb j) 0) l)
    refine congrArg _ (funext fun a => Fin.ext ?_)
    match a with
    | ⟨0, _⟩ => show win2_0.index t (0 : Fin 2) * 400 + 1 * (j 0).val = win2_4.index t (0 : Fin 2) * 400 + 1 * (j 0).val; omega
    | ⟨1, _⟩ => show win2_0.index t (1 : Fin 2) * 10000 + 1 * l.val = l.val; omega
  · show V c main_call0_v7 (((cfg2.win 1).blk t).view.emb (ix2 l d)) = V c main_call0_v7 (ix2 l d)
    refine congrArg _ (funext fun a => Fin.ext ?_)
    match a with
    | ⟨0, _⟩ => show win2_1.index t (0 : Fin 2) * 10000 + 1 * l.val = l.val; omega
    | ⟨1, _⟩ => show win2_1.index t (1 : Fin 2) * 256 + 1 * d.val = d.val; omega
  · show V c main_call0_v3 (((cfg2.win 2).blk t).view.emb (ix2 d (j 1))) = V c main_call0_v3 (ix2 d ((((cfg2.win 4).blk t).view.emb j) 1))
    refine congrArg _ (funext fun a => Fin.ext ?_)
    match a with
    | ⟨0, _⟩ => show win2_2.index t (0 : Fin 2) * 256 + 1 * d.val = d.val; omega
    | ⟨1, _⟩ => show win2_2.index t (1 : Fin 2) * 128 + 1 * (j 1).val = win2_4.index t (1 : Fin 2) * 128 + 1 * (j 1).val; omega
  · show V c main_call0_v5 (((cfg2.win 3).blk t).view.emb (ix2 0 (j 1))) = V c main_call0_v5 (ix2 0 ((((cfg2.win 4).blk t).view.emb j) 1))
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega

/-- An index is in point t's output block iff each coordinate is in the block's range. -/
theorem mem_blk (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_call0_v8).slice (win2_4.rect t)).set ↔ _
  rw [View.set_slice_whole, Rect.mem_set_unit]
  exact Iff.rfl

/-- Every row lies in some point's strip: row r in the strip of point r / 400. -/
theorem cover (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  have hN : (i 0).val / 400 < cfg2.N := by rw [show cfg2.N = 25 from N_2]; omega
  refine ⟨⟨(i 0).val / 400, hN⟩, flush2_4 _, ?_⟩
  rw [mem_blk]
  obtain ⟨-, -, -, -, -, -, -, -, e40, e41⟩ := idx_facts ⟨(i 0).val / 400, hN⟩
  intro a
  match a with
  | ⟨0, _⟩ =>
    show win2_4.index ⟨(i 0).val / 400, hN⟩ (0 : Fin 2) * 400 ≤ (i 0).val ∧ (i 0).val < win2_4.index ⟨(i 0).val / 400, hN⟩ (0 : Fin 2) * 400 + 400
    rw [e40]; show (i 0).val / 400 * 400 ≤ (i 0).val ∧ (i 0).val < (i 0).val / 400 * 400 + 400; omega
  | ⟨1, _⟩ =>
    show win2_4.index ⟨(i 0).val / 400, hN⟩ (1 : Fin 2) * 128 ≤ (i 1).val ∧ (i 1).val < win2_4.index ⟨(i 0).val / 400, hN⟩ (1 : Fin 2) * 128 + 128
    rw [e41]; omega

/-- After the region its output array holds layer 3 of the arrays the region found. -/
theorem final (c : Dev nD) :
    (dat2 V c).arrAt 4 cfg2.N = layer3 (V c main_arg1) (V c main_call0_v7) (V c main_call0_v3) (V c main_call0_v5) :=
  (dat2 V c).arrAt_eq_of_cover 4 _ (fun t _ => flushed_eq V c t) cover

end Cert.KernelIdeal.Layer3

end
-- ==== Proof.KernelValue.lean ====
/-
  The kernel's result as the specification's function of its arguments.
  The program is five stretches: the host pads the four weights and the bias with zeros (and reshapes the bias to one
  row); three kernel regions run layer 1, layer 2 and layer 3, each reading the adjacency, the previous region's output
  and its padded weights; the host keeps the first 100 columns.  The buffer contents at each boundary are a fold from
  the launch memory; reading that fold at the buffers that matter, boundary by boundary, gives `Gcn.kernelSpec` of the
  seven arguments.
-/
import proofs.«157947_g18906446037451_cont_8to1_851_2_alg».proof.Proof.KernelRun
import proofs.«157947_g18906446037451_cont_8to1_851_2_alg».proof.Proof.KernelLayer1
import proofs.«157947_g18906446037451_cont_8to1_851_2_alg».proof.Proof.KernelLayer2
import proofs.«157947_g18906446037451_cont_8to1_851_2_alg».proof.Proof.KernelLayer3
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem Gcn
open Idealize.ShloMosaic.StableHlo
open Facts₀

variable (m : (ℓ : Loc nD τ sig) → Buf (Elt Ideal) ℓ) (ρ : Dev nD → PrngReg)

/-! ## After the host's padding (the first region's entry) -/

/-- The host's first stretch writes neither the features nor the adjacency. -/
theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The four weights, zero-padded. -/
theorem W1_v0 (c : Dev nD) : W1 m ρ c (Proc.devRef .tc main_call0_v0) = padZ 128 256 (m ((c : Thread nD τ).loc main_arg2)) := by
  show StableHlo.after hostOps0 (W0 m ρ c) (Proc.devRef .tc main_call0_v0) = _
  after_results
  exact pad_eq_padZ (p := 0) (q := 56) _ _ Cert.KernelIdeal.Gen.pads_S128x200_S128x256_000_0560 Cert.KernelIdeal.Gen.h_S_ sitofp_zero
theorem W1_v1 (c : Dev nD) : W1 m ρ c (Proc.devRef .tc main_call0_v1) = padZ 256 384 (m ((c : Thread nD τ).loc main_arg3)) := by
  show StableHlo.after hostOps0 (W0 m ρ c) (Proc.devRef .tc main_call0_v1) = _
  after_results
  exact pad_eq_padZ (p := 56) (q := 84) _ _ Cert.KernelIdeal.Gen.pads_S200x300_S256x384_0560_0840 Cert.KernelIdeal.Gen.h_S_ sitofp_zero
theorem W1_v2 (c : Dev nD) : W1 m ρ c (Proc.devRef .tc main_call0_v2) = padZ 384 256 (m ((c : Thread nD τ).loc main_arg4)) := by
  show StableHlo.after hostOps0 (W0 m ρ c) (Proc.devRef .tc main_call0_v2) = _
  after_results
  exact pad_eq_padZ (p := 84) (q := 56) _ _ Cert.KernelIdeal.Gen.pads_S300x200_S384x256_0840_0560 Cert.KernelIdeal.Gen.h_S_ sitofp_zero
theorem W1_v3 (c : Dev nD) : W1 m ρ c (Proc.devRef .tc main_call0_v3) = padZ 256 128 (m ((c : Thread nD τ).loc main_arg5)) := by
  show StableHlo.after hostOps0 (W0 m ρ c) (Proc.devRef .tc main_call0_v3) = _
  after_results
  exact pad_eq_padZ (p := 56) (q := 28) _ _ Cert.KernelIdeal.Gen.pads_S200x100_S256x128_0560_0280 Cert.KernelIdeal.Gen.h_S_ sitofp_zero
/-- The bias, zero-padded and laid out as one row. -/
theorem W1_v5 (c : Dev nD) : W1 m ρ c (Proc.devRef .tc main_call0_v5) = padZ 1 128 (rowOf (m ((c : Thread nD τ).loc main_arg6))) := by
  show StableHlo.after hostOps0 (W0 m ρ c) (Proc.devRef .tc main_call0_v5) = _
  after_results
  exact reshape_pad_eq_padZ (q := 28) _ _ Cert.KernelIdeal.Gen.pads_S100_S128_0280 Cert.KernelIdeal.Gen.h_S_ sitofp_zero Cert.KernelIdeal.Gen.shapeCasts_S128_S1x128

/-! ## After layer 1 (the second region's entry) -/

theorem W2_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg1 m ρ c)
theorem W2_v1 (c : Dev nD) : W2 m ρ c (Proc.devRef .tc main_call0_v1) = padZ 256 384 (m ((c : Thread nD τ).loc main_arg3)) :=
  (W2_of_ne m ρ c main_call0_v1 (by decide)).trans (W1_v1 m ρ c)
theorem W2_v2 (c : Dev nD) : W2 m ρ c (Proc.devRef .tc main_call0_v2) = padZ 384 256 (m ((c : Thread nD τ).loc main_arg4)) :=
  (W2_of_ne m ρ c main_call0_v2 (by decide)).trans (W1_v2 m ρ c)
theorem W2_v3 (c : Dev nD) : W2 m ρ c (Proc.devRef .tc main_call0_v3) = padZ 256 128 (m ((c : Thread nD τ).loc main_arg5)) :=
  (W2_of_ne m ρ c main_call0_v3 (by decide)).trans (W1_v3 m ρ c)
theorem W2_v5 (c : Dev nD) : W2 m ρ c (Proc.devRef .tc main_call0_v5) = padZ 1 128 (rowOf (m ((c : Thread nD τ).loc main_arg6))) :=
  (W2_of_ne m ρ c main_call0_v5 (by decide)).trans (W1_v5 m ρ c)
/-- Layer 1's output. -/
theorem W2_v6 (c : Dev nD) : W2 m ρ c (Proc.devRef .tc main_call0_v6)
    = layer1 (m ((c : Thread nD τ).loc main_arg1)) (m ((c : Thread nD τ).loc main_arg0)) (padZ 128 256 (m ((c : Thread nD τ).loc main_arg2))) := by
  refine ((W2_arr m ρ c 3).trans (Layer1.final (V1 m ρ) c)).trans ?_
  show layer1 (W1 m ρ c (Proc.devRef .tc main_arg1)) (W1 m ρ c (Proc.devRef .tc main_arg0)) (W1 m ρ c (Proc.devRef .tc main_call0_v0)) = _
  rw [W1_arg1, W1_arg0, W1_v0]

/-! ## After layer 2 (the third region's entry) -/

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_v3 (c : Dev nD) : W3 m ρ c (Proc.devRef .tc main_call0_v3) = padZ 256 128 (m ((c : Thread nD τ).loc main_arg5)) :=
  (W3_of_ne m ρ c main_call0_v3 (by decide)).trans (W2_v3 m ρ c)
theorem W3_v5 (c : Dev nD) : W3 m ρ c (Proc.devRef .tc main_call0_v5) = padZ 1 128 (rowOf (m ((c : Thread nD τ).loc main_arg6))) :=
  (W3_of_ne m ρ c main_call0_v5 (by decide)).trans (W2_v5 m ρ c)
/-- Layer 2's output. -/
theorem W3_v7 (c : Dev nD) : W3 m ρ c (Proc.devRef .tc main_call0_v7)
    = layer2 (m ((c : Thread nD τ).loc main_arg1)) (layer1 (m ((c : Thread nD τ).loc main_arg1)) (m ((c : Thread nD τ).loc main_arg0)) (padZ 128 256 (m ((c : Thread nD τ).loc main_arg2))))
        (padZ 256 384 (m ((c : Thread nD τ).loc main_arg3))) (padZ 384 256 (m ((c : Thread nD τ).loc main_arg4))) := by
  refine ((W3_arr m ρ c 4).trans (Layer2.final (V2 m ρ) c)).trans ?_
  show layer2 (W2 m ρ c (Proc.devRef .tc main_arg1)) (W2 m ρ c (Proc.devRef .tc main_call0_v6)) (W2 m ρ c (Proc.devRef .tc main_call0_v1))
    (W2 m ρ c (Proc.devRef .tc main_call0_v2)) = _
  rw [W2_arg1, W2_v6, W2_v1, W2_v2]

/-! ## After layer 3, and the columns kept -/

/-- Layer 3's output. -/
theorem W4_v8 (c : Dev nD) : W4 m ρ c (Proc.devRef .tc main_call0_v8)
    = layer3 (m ((c : Thread nD τ).loc main_arg1))
        (layer2 (m ((c : Thread nD τ).loc main_arg1)) (layer1 (m ((c : Thread nD τ).loc main_arg1)) (m ((c : Thread nD τ).loc main_arg0)) (padZ 128 256 (m ((c : Thread nD τ).loc main_arg2))))
          (padZ 256 384 (m ((c : Thread nD τ).loc main_arg3))) (padZ 384 256 (m ((c : Thread nD τ).loc main_arg4))))
        (padZ 256 128 (m ((c : Thread nD τ).loc main_arg5))) (padZ 1 128 (rowOf (m ((c : Thread nD τ).loc main_arg6)))) := by
  refine ((W4_arr m ρ c 4).trans (Layer3.final (V3 m ρ) c)).trans ?_
  show layer3 (W3 m ρ c (Proc.devRef .tc main_arg1)) (W3 m ρ c (Proc.devRef .tc main_call0_v7)) (W3 m ρ c (Proc.devRef .tc main_call0_v3))
    (W3 m ρ c (Proc.devRef .tc main_call0_v5)) = _
  rw [W3_arg1, W3_v7, W3_v3, W3_v5]

/-- The result buffer at the last boundary is the specification of the launch contents of the arguments. -/
theorem W5_v0 (c : Dev nD) : W5 m ρ c (Proc.devRef .tc main_v0)
    = kernelSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hs : W5 m ρ c (Proc.devRef .tc main_v0) = takeCols 100 (by norm_num) (W4 m ρ c (Proc.devRef .tc main_call0_v8)) := by
    show StableHlo.after hostOps3 (W4 m ρ c) (Proc.devRef .tc main_v0) = _
    after_results
    exact slice_eq_takeCols (by norm_num) _ Cert.KernelIdeal.Gen.slices_S10000x128_S10000x100_0_0
  rw [hs, W4_v8]
  rfl

/-- Every weakly fair execution of the kernel's program ends with its result at the specification of the launch
    contents of its arguments, the arguments unchanged. -/
theorem run : θ_run defs (onTc (τ := τ) (main (F := Ideal))) ⟨m, fun _ => 0, ρ⟩ (fun r => ∀ c : Dev nD,
      r.2.mem ((c.tc : Thread nD τ).loc main_v0) = kernelSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W5_v0 m ρ c), (h c).2⟩) (Cert.KernelIdeal.Run.run_main (F := Ideal) m ρ)

end Cert.KernelIdeal.KernelValue

end
-- ==== Proof.RefValue.lean ====
/-
  The reference's result as the specification's function of its arguments.
  The reference is a straight line of host operations: four times a product with a weight matrix followed by (for the
  first three) a product with the adjacency, each followed by a maximum with zero; the bias is broadcast to every row
  before the last maximum.  Each dot product is the plain rows-by-columns product, each maximum with the zero splat is
  relu, so the composed term of the run IS `Gcn.refSpec` of the seven arguments.
-/
import proofs.«157947_g18906446037451_cont_8to1_851_2_alg».proof.Defs
import proofs.«157947_g18906446037451_cont_8to1_851_2_alg».proof.Proof.Gen.ReferenceIdeal.Run
import proofs.«157947_g18906446037451_cont_8to1_851_2_alg».proof.Proof.GcnOps

noncomputable section

namespace Cert.ReferenceIdeal.RefValue

open Cert.ReferenceIdeal Cert.ReferenceIdeal.Gen Idealize.ShloMosaic Idealize.ShloMosaic.TcCoe Idealize.SL.Sem Gcn

/-- The six dot products' dimension numbers are those of the plain product. -/
theorem dotXW1 : dot_S10000x128_S128x200_S10000x200_1_0_0_1_n_n = DotDims.plain 10000 128 200 := rfl
theorem dotA200 : dot_S10000x10000_S10000x200_S10000x200_1_0_0_1_n_n = DotDims.plain 10000 10000 200 := rfl
theorem dotHW2 : dot_S10000x200_S200x300_S10000x300_1_0_0_1_n_n = DotDims.plain 10000 200 300 := rfl
theorem dotA300 : dot_S10000x10000_S10000x300_S10000x300_1_0_0_1_n_n = DotDims.plain 10000 10000 300 := rfl
theorem dotHW3 : dot_S10000x300_S300x200_S10000x200_1_0_0_1_n_n = DotDims.plain 10000 300 200 := rfl
theorem dotHWo : dot_S10000x200_S200x100_S10000x100_1_0_0_1_n_n = DotDims.plain 10000 200 100 := rfl

/-- The run's composed term, at the exact instance, is the specification. -/
theorem term_eq (X : FVec Ideal S10000x128 .f32) (A : FVec Ideal S10000x10000 .f32) (W1 : FVec Ideal S128x200 .f32)
    (W2 : FVec Ideal S200x300 .f32) (W3 : FVec Ideal S300x200 .f32) (Wo : FVec Ideal S200x100 .f32) (b : FVec Ideal S100 .f32) :
    maximumf (addf (Host.dotGeneral dot_S10000x200_S200x100_S10000x100_1_0_0_1_n_n none (maximumf (Host.dotGeneral dot_S10000x10000_S10000x200_S10000x200_1_0_0_1_n_n none A (Host.dotGeneral dot_S10000x300_S300x200_S10000x200_1_0_0_1_n_n none (maximumf (Host.dotGeneral dot_S10000x10000_S10000x300_S10000x300_1_0_0_1_n_n none A (Host.dotGeneral dot_S10000x200_S200x300_S10000x300_1_0_0_1_n_n none (maximumf (Host.dotGeneral dot_S10000x10000_S10000x200_S10000x200_1_0_0_1_n_n none A (Host.dotGeneral dot_S10000x128_S128x200_S10000x200_1_0_0_1_n_n none X W1)) (broadcastInDim S10000x200 ![] bcast_S_S10000x200 (constant S_ .f32 0x00000000#32))) W2)) (broadcastInDim S10000x300 ![] bcast_S_S10000x300 (constant S_ .f32 0x00000000#32))) W3)) (broadcastInDim S10000x200 ![] bcast_S_S10000x200 (constant S_ .f32 0x00000000#32))) Wo) (broadcastInDim S10000x100 ![0, 1] bcast_S1x100_S10000x100_0_1 (broadcastInDim S1x100 ![1] bcast_S100_S1x100_1 b))) (broadcastInDim S10000x100 ![] bcast_S_S10000x100 (constant S_ .f32 0x00000000#32))
      = refSpec X A W1 W2 W3 Wo b := by
  unfold refSpec
  rw [dot_eq_mm _ dotXW1, dot_eq_mm _ dotA200, max_bcast_eq_relu, dot_eq_mm _ dotHW2, dot_eq_mm _ dotA300, max_bcast_eq_relu,
    dot_eq_mm _ dotHW3, dot_eq_mm _ dotA200, max_bcast_eq_relu, dot_eq_mm _ dotHWo, add_bcast_eq_addRow, max_bcast_eq_relu]

/-- Every weakly fair execution of the reference ends with its result at the specification of the launch
    contents of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (term_eq _ _ _ _ _ _ _), (h c).2⟩)
    (Cert.ReferenceIdeal.Value.run (F := Ideal) m ρ)

end Cert.ReferenceIdeal.RefValue

end
-- ==== Proof.FiniteInputs.lean ====
/-
  Finiteness of the seven inputs, read off the precondition.

  The precondition is the conjunction, over the seven input arrays x, of "every entry of x satisfies |x| < +∞":
  the absolute value max x (-x) of each entry is compared, strictly, with the extended real that the binary32
  pattern 0x7F800000 denotes, which is +∞; the one-bit answers are folded by "and" over all coordinates starting
  from 1; and the seven folds are joined by "and".  If the whole conjunction is 1 then each fold is 1, hence every
  one-bit answer is 1, hence max x (-x) < ⊤ at every entry.  An extended real is ⊥, ⊤ or a real number; at ⊥ and at ⊤
  the value max x (-x) is ⊤, which is not below ⊤, so every entry is a real number.
-/
import proofs.«157947_g18906446037451_cont_8to1_851_2_alg».proof.Pre_finite_inputs
import proofs.«157947_g18906446037451_cont_8to1_851_2_alg».proof.Proof.Gen.Pre_finite_inputs
import proofs.«157947_g18906446037451_cont_8to1_851_2_alg».proof.Proof.GcnSpec
import Idealize.ShloMosaic.Lib.ReduceAll
import Idealize.ShloMosaic.PureOps.Ideal.Laws

namespace Cert.FiniteInputs

open Idealize.ShloMosaic Cert.Pre_finite_inputs

/-- A rank-0 array has exactly one index: two index functions on the empty set of axes agree. -/
instance subsingleton_scalar_idx : Subsingleton S_.Idx := ⟨fun a b => funext fun d => d.elim0⟩

/-- The binary32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) lies strictly below ⊤ is a real number:
    at x = ⊥ and at x = ⊤ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct, at any shape S: if the fold by "and", over all coordinates and starting from 1, of the answers
    to |x| < +∞ comes out 1, then every entry of x is a real number.  The fold being 1 makes each answer 1; the
    right-hand side of each comparison is the scalar +∞ read at every index; and an answer 1 to a strict comparison
    says the comparison holds. -/
theorem finite_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
          (constantI S_ 1 1#1) hr hu ValueIdx.ix0 = 1#1) :
    Gcn.Finite x := by
  intro i
  have h1 := Host.reduce_andi_all _ _ hr hu ValueIdx.ix0 e i
  have hbc : broadcastInDim S ![] hb (constant (F := Ideal) S_ .f32 0x7F800000#32) i = (⊤ : EReal) := by
    unfold broadcastInDim
    exact ofBits_inf
  have h2 : Ideal.cmp .olt (max (x i) (-(x i))) (⊤ : EReal) = 1#1 := by
    rw [← hbc]; exact h1
  apply real_of_abs_lt_top
  by_contra hlt
  have h3 : Ideal.cmp .olt (max (x i) (-(x i))) (⊤ : EReal) = 0#1 := by
    simp only [Ideal.cmp, decide_eq_false hlt]; rfl
  rw [h3] at h2
  exact absurd h2 (by decide)

/-- An entrywise "and" of two one-bit arrays that is 1 at an index has both operands 1 there. -/
theorem andi_apply_eq_one {s : Shape} (a b : IVec s 1) (i : s.Idx) (h : andi a b i = 1#1) :
    a i = 1#1 ∧ b i = 1#1 :=
  IntOp.andi_eq_one.1 h

/-- The precondition holding (its one-bit value is 1) makes all seven inputs arrays of real numbers: the value is
    a left-nested "and" of seven folds, so each fold is 1, and each fold is the conjunct of `finite_of_all`. -/
theorem finite_of_pre (x0 : FVec Ideal S10000x128 .f32) (x1 : FVec Ideal S10000x10000 .f32) (x2 : FVec Ideal S128x200 .f32) (x3 : FVec Ideal S200x300 .f32)
    (x4 : FVec Ideal S300x200 .f32) (x5 : FVec Ideal S200x100 .f32) (x6 : FVec Ideal S100 .f32)
    (h : Cert.Pre_finite_inputs.fn (F := Ideal) x0 x1 x2 x3 x4 x5 x6 = fun _ => 1#1) :
    Gcn.Finite x0 ∧ Gcn.Finite x1 ∧ Gcn.Finite x2 ∧ Gcn.Finite x3 ∧ Gcn.Finite x4 ∧ Gcn.Finite x5 ∧ Gcn.Finite x6 := by
  have h0 := congrFun h ValueIdx.ix0
  dsimp only [fn, fn_part1] at h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨finite_of_all x0 _ _ _ e0, finite_of_all x1 _ _ _ e1, finite_of_all x2 _ _ _ e2, finite_of_all x3 _ _ _ e3,
    finite_of_all x4 _ _ _ e4, finite_of_all x5 _ _ _ e5, finite_of_all x6 _ _ _ e6⟩

end Cert.FiniteInputs
-- ==== Proof.GcnBridge.lean ====
/-
  The kernel's padded, re-associated forward pass equals the reference's, on real-valued inputs.

  Every input is real-valued, so each array is the image of a real matrix under the coercion into the extended
  reals.  Each operation of the vocabulary (product, maximum with zero, adding a row, zero padding, keeping columns)
  commutes with that coercion, so both programs are images of real-matrix expressions, and there the claim is
  matrix algebra: the product is associative, and zero padding passes through every operation
  (a product of two arrays padded along the contracted size is the product padded; a maximum with zero of a padded
  array is the maximum padded; adding a padded row to a column-padded array is the sum padded; keeping the original
  columns of a column-padded array gives the array back).
-/
import proofs.«157947_g18906446037451_cont_8to1_851_2_alg».proof.Proof.GcnSpec
import Mathlib.Data.Matrix.Mul
import Mathlib.Data.EReal.Basic
import Mathlib.Algebra.BigOperators.Fin

noncomputable section

namespace Gcn

open Idealize.ShloMosaic Idealize.ShloMosaic.ValueIdx

/-! ## Real matrices inside the extended-real arrays -/

/-- A real matrix as an array of extended reals. -/
def toE {a b : ℕ} (r : Matrix (Fin a) (Fin b) ℝ) : Mat a b := fun i => ((r (i 0) (i 1) : ℝ) : EReal)

theorem toE_ix2 {a b : ℕ} (r : Matrix (Fin a) (Fin b) ℝ) (p : Fin a) (q : Fin b) :
    toE r (ix2 p q) = ((r p q : ℝ) : EReal) := rfl

/-- A real-valued array is the image of a real matrix. -/
theorem exists_toE {a b : ℕ} (v : Mat a b) (hv : Finite v) : ∃ r : Matrix (Fin a) (Fin b) ℝ, v = toE r := by
  choose f hf using hv
  refine ⟨fun p q => f (ix2 p q), ?_⟩
  funext i
  obtain ⟨p, q, rfl⟩ : ∃ (p : Fin a) (q : Fin b), i = ix2 p q := ⟨i 0, i 1, eq_ix2 i⟩
  exact hf (ix2 p q)

/-- The coercion of a finite sum of reals is the sum of the coercions. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-! ## The operations on real matrices -/

/-- Entrywise maximum with zero. -/
def reluR {a b : ℕ} (r : Matrix (Fin a) (Fin b) ℝ) : Matrix (Fin a) (Fin b) ℝ := fun p q => max (r p q) 0

/-- Add the one-row matrix s to every row of r. -/
def addRowR {a b : ℕ} (r : Matrix (Fin a) (Fin b) ℝ) (s : Matrix (Fin 1) (Fin b) ℝ) : Matrix (Fin a) (Fin b) ℝ :=
  fun p q => r p q + s 0 q

/-- The a×b matrix r in the top-left corner of an a'×b' matrix of zeros. -/
def padR {a b : ℕ} (a' b' : ℕ) (r : Matrix (Fin a) (Fin b) ℝ) : Matrix (Fin a') (Fin b') ℝ :=
  fun p q => if h : p.val < a ∧ q.val < b then r ⟨p.val, h.1⟩ ⟨q.val, h.2⟩ else 0

/-- The first b' columns. -/
def takeR {a b : ℕ} (b' : ℕ) (hb : b' ≤ b) (r : Matrix (Fin a) (Fin b) ℝ) : Matrix (Fin a) (Fin b') ℝ :=
  fun p q => r p ⟨q.val, q.isLt.trans_le hb⟩

/-! ## Each array operation is the real one under the coercion -/

theorem mm_toE {a c b : ℕ} (r : Matrix (Fin a) (Fin c) ℝ) (s : Matrix (Fin c) (Fin b) ℝ) :
    mm (toE r) (toE s) = toE (r * s) := by
  funext i
  obtain ⟨p, q, rfl⟩ : ∃ (p : Fin a) (q : Fin b), i = ix2 p q := ⟨i 0, i 1, eq_ix2 i⟩
  rw [toE_ix2, Matrix.mul_apply, coe_sum]
  show ∑ k : Fin c, toE r (ix2 p k) * toE s (ix2 k q) = _
  refine Finset.sum_congr rfl fun k _ => ?_
  rw [toE_ix2, toE_ix2, EReal.coe_mul]

theorem relu_toE {a b : ℕ} (r : Matrix (Fin a) (Fin b) ℝ) : relu (toE r) = toE (reluR r) := by
  funext i
  obtain ⟨p, q, rfl⟩ : ∃ (p : Fin a) (q : Fin b), i = ix2 p q := ⟨i 0, i 1, eq_ix2 i⟩
  show max (toE r (ix2 p q)) 0 = toE (reluR r) (ix2 p q)
  rw [toE_ix2, toE_ix2]
  show _ = ((max (r p q) 0 : ℝ) : EReal)
  rw [EReal.coe_strictMono.monotone.map_max, EReal.coe_zero]

theorem addRow_toE {a b : ℕ} (r : Matrix (Fin a) (Fin b) ℝ) (s : Matrix (Fin 1) (Fin b) ℝ) :
    addRow (toE r) (toE s) = toE (addRowR r s) := by
  funext i
  obtain ⟨p, q, rfl⟩ : ∃ (p : Fin a) (q : Fin b), i = ix2 p q := ⟨i 0, i 1, eq_ix2 i⟩
  show toE r (ix2 p q) + toE s (ix2 0 q) = toE (addRowR r s) (ix2 p q)
  rw [toE_ix2, toE_ix2, toE_ix2]
  show _ = ((r p q + s 0 q : ℝ) : EReal)
  rw [EReal.coe_add]

theorem padZ_toE {a b : ℕ} (a' b' : ℕ) (r : Matrix (Fin a) (Fin b) ℝ) :
    padZ a' b' (toE r) = toE (padR a' b' r) := by
  funext i
  obtain ⟨p, q, rfl⟩ : ∃ (p : Fin a') (q : Fin b'), i = ix2 p q := ⟨i 0, i 1, eq_ix2 i⟩
  rw [toE_ix2]
  show (if h : p.val < a ∧ q.val < b then toE r (ix2 ⟨p.val, h.1⟩ ⟨q.val, h.2⟩) else 0) = _
  unfold padR
  by_cases h : p.val < a ∧ q.val < b
  · rw [dif_pos h, dif_pos h, toE_ix2]
  · rw [dif_neg h, dif_neg h, EReal.coe_zero]

theorem takeCols_toE {a b : ℕ} (b' : ℕ) (hb : b' ≤ b) (r : Matrix (Fin a) (Fin b) ℝ) :
    takeCols b' hb (toE r) = toE (takeR b' hb r) := by
  funext i
  obtain ⟨p, q, rfl⟩ : ∃ (p : Fin a) (q : Fin b'), i = ix2 p q := ⟨i 0, i 1, eq_ix2 i⟩
  rfl

/-- A real-valued vector, as a one-row array, is the image of a one-row real matrix. -/
theorem exists_rowOf_toE {n : ℕ} (v : Row n) (hv : Finite v) :
    ∃ r : Matrix (Fin 1) (Fin n) ℝ, rowOf v = toE r := by
  choose f hf using hv
  refine ⟨fun _ q => f (ix1 q), ?_⟩
  funext i
  obtain ⟨p, q, rfl⟩ : ∃ (p : Fin 1) (q : Fin n), i = ix2 p q := ⟨i 0, i 1, eq_ix2 i⟩
  exact hf (ix1 q)

/-! ## Zero padding passes through the real operations -/

/-- A sum over a longer range of terms that vanish past the shorter range is the sum over the shorter range. -/
theorem sum_dite_lt {c c' : ℕ} (hc : c ≤ c') (g : Fin c → ℝ) :
    ∑ k : Fin c', (if h : k.val < c then g ⟨k.val, h⟩ else 0) = ∑ k : Fin c, g k := by
  obtain ⟨d, rfl⟩ := Nat.exists_eq_add_of_le hc
  rw [Fin.sum_univ_add]
  have h2 : ∑ j : Fin d, (if h : (Fin.natAdd c j).val < c then g ⟨(Fin.natAdd c j).val, h⟩ else 0) = 0 := by
    refine Finset.sum_eq_zero fun j _ => ?_
    rw [dif_neg]
    simp
  rw [h2, add_zero]
  refine Finset.sum_congr rfl fun k _ => ?_
  have hk : (Fin.castAdd d k).val < c := k.isLt
  rw [dif_pos hk]
  rfl

/-- The product of two matrices padded along the contracted size (and anywhere outside) is the product, padded. -/
theorem padR_mul {a c b : ℕ} (a' c' b' : ℕ) (hc : c ≤ c') (M : Matrix (Fin a) (Fin c) ℝ)
    (W : Matrix (Fin c) (Fin b) ℝ) : padR a' c' M * padR c' b' W = padR a' b' (M * W) := by
  funext p q
  rw [Matrix.mul_apply]
  unfold padR
  by_cases h : p.val < a ∧ q.val < b
  · rw [dif_pos h, Matrix.mul_apply, ← sum_dite_lt hc]
    refine Finset.sum_congr rfl fun k _ => ?_
    by_cases hk : k.val < c
    · rw [dif_pos ⟨h.1, hk⟩, dif_pos ⟨hk, h.2⟩, dif_pos hk]
    · rw [dif_neg hk, dif_neg (show ¬(p.val < a ∧ k.val < c) from fun h' => hk h'.2), zero_mul]
  · rw [dif_neg h]
    refine Finset.sum_eq_zero fun k _ => ?_
    by_cases hp : p.val < a
    · have hq : ¬ q.val < b := fun hq => h ⟨hp, hq⟩
      rw [dif_neg (show ¬(k.val < c ∧ q.val < b) from fun h' => hq h'.2), mul_zero]
    · rw [dif_neg (show ¬(p.val < a ∧ k.val < c) from fun h' => hp h'.1), zero_mul]

/-- Padding to the same size changes nothing. -/
theorem padR_self {a b : ℕ} (r : Matrix (Fin a) (Fin b) ℝ) : padR a b r = r := by
  funext p q
  unfold padR
  rw [dif_pos ⟨p.isLt, q.isLt⟩]

/-- A product with a column-padded right factor is the product, column-padded. -/
theorem mul_padR {a c b : ℕ} (b' : ℕ) (M : Matrix (Fin a) (Fin c) ℝ) (W : Matrix (Fin c) (Fin b) ℝ) :
    M * padR c b' W = padR a b' (M * W) := by
  have h := padR_mul a c b' le_rfl M W
  rwa [padR_self] at h

theorem reluR_padR {a b : ℕ} (a' b' : ℕ) (r : Matrix (Fin a) (Fin b) ℝ) :
    reluR (padR a' b' r) = padR a' b' (reluR r) := by
  funext p q
  unfold reluR padR
  by_cases h : p.val < a ∧ q.val < b
  · rw [dif_pos h, dif_pos h]
  · rw [dif_neg h, dif_neg h, max_self]

/-- Adding a padded row to a column-padded matrix is the sum, column-padded. -/
theorem addRowR_padR {a b : ℕ} (b' : ℕ) (r : Matrix (Fin a) (Fin b) ℝ) (s : Matrix (Fin 1) (Fin b) ℝ) :
    addRowR (padR a b' r) (padR 1 b' s) = padR a b' (addRowR r s) := by
  funext p q
  unfold addRowR padR
  by_cases hq : q.val < b
  · rw [dif_pos ⟨p.isLt, hq⟩, dif_pos ⟨by simp, hq⟩, dif_pos ⟨p.isLt, hq⟩]
  · rw [dif_neg (fun h' => hq h'.2), dif_neg (fun h' => hq h'.2), dif_neg (fun h' => hq h'.2), add_zero]

/-- The original columns of a column-padded matrix are the matrix. -/
theorem takeR_padR {a b : ℕ} (b' : ℕ) (hb : b ≤ b') (r : Matrix (Fin a) (Fin b) ℝ) :
    takeR b hb (padR a b' r) = r := by
  funext p q
  unfold takeR padR
  rw [dif_pos ⟨p.isLt, q.isLt⟩]

/-! ## The two programs agree -/

/-- The identity on real matrices, at any sizes: n nodes, feature widths d0 … d4, padded widths e1 … e4. -/
theorem real_identity {n d0 d1 d2 d3 d4 : ℕ} (e1 e2 e3 e4 : ℕ) (h1 : d1 ≤ e1) (h2 : d2 ≤ e2) (h3 : d3 ≤ e3)
    (h4 : d4 ≤ e4) (adj : Matrix (Fin n) (Fin n) ℝ) (x : Matrix (Fin n) (Fin d0) ℝ)
    (w1 : Matrix (Fin d0) (Fin d1) ℝ) (w2 : Matrix (Fin d1) (Fin d2) ℝ) (w3 : Matrix (Fin d2) (Fin d3) ℝ)
    (wo : Matrix (Fin d3) (Fin d4) ℝ) (br : Matrix (Fin 1) (Fin d4) ℝ) :
    takeR d4 h4 (reluR (addRowR (reluR (adj * (reluR ((adj * reluR ((adj * x) * padR d0 e1 w1)) * padR e1 e2 w2)
        * padR e2 e3 w3)) * padR e3 e4 wo) (padR 1 e4 br)))
      = reluR (addRowR (reluR (adj * (reluR (adj * (reluR (adj * (x * w1)) * w2)) * w3)) * wo) br) := by
  rw [Matrix.mul_assoc adj x, mul_padR, mul_padR, reluR_padR,
    mul_padR, padR_mul _ _ _ h1, Matrix.mul_assoc adj, reluR_padR,
    padR_mul _ _ _ h2,
    mul_padR, reluR_padR, padR_mul _ _ _ h3, addRowR_padR, reluR_padR, takeR_padR]

theorem kernelSpec_eq_refSpec (X : Mat 10000 128) (A : Mat 10000 10000) (W1 : Mat 128 200) (W2 : Mat 200 300)
    (W3 : Mat 300 200) (Wo : Mat 200 100) (b : Row 100)
    (hX : Finite X) (hA : Finite A) (hW1 : Finite W1) (hW2 : Finite W2) (hW3 : Finite W3) (hWo : Finite Wo)
    (hb : Finite b) :
    kernelSpec X A W1 W2 W3 Wo b = refSpec X A W1 W2 W3 Wo b := by
  obtain ⟨x, rfl⟩ := exists_toE X hX
  obtain ⟨adj, rfl⟩ := exists_toE A hA
  obtain ⟨w1, rfl⟩ := exists_toE W1 hW1
  obtain ⟨w2, rfl⟩ := exists_toE W2 hW2
  obtain ⟨w3, rfl⟩ := exists_toE W3 hW3
  obtain ⟨wo, rfl⟩ := exists_toE Wo hWo
  obtain ⟨br, hbr⟩ := exists_rowOf_toE b hb
  unfold kernelSpec refSpec layer3 layer2 layer1
  rw [hbr]
  simp only [padZ_toE, mm_toE, relu_toE, addRow_toE, takeCols_toE]
  exact congrArg toE (real_identity 256 384 256 128 (by norm_num) (by norm_num) (by norm_num) (by norm_num) adj x w1 w2 w3 wo br)

end Gcn

end
-- ==== Proof.lean ====
/-
  A three-layer graph convolution, z = relu (relu (A · relu (A · relu (A · X · W1) · W2) · W3) · Wo + b) on a dense
  10000-node adjacency A, computed by a kernel in three row-strip passes over A against the plain reference.

  The two programs differ in three ways, none of which changes the result on real inputs:
  the kernel pads every feature width with zero columns (and the next weight with as many zero rows), which adds only
  zero terms to every sum; it multiplies (A · H) · W where the reference multiplies A · (H · W), equal by
  associativity of the matrix product over the reals (this is where the inputs' finiteness is used: on the extended
  reals distributivity fails at the infinities); and it works 400 rows of A at a time, each output row depending only
  on its own row of A.  The last 28 padded columns are dropped at the end.

  The pieces: `Gcn.kernelSpec` / `Gcn.refSpec` state both results as functions of the seven arguments (GcnSpec);
  GcnOps reads the printed operations as those matrix operations; KernelLayer1–3 read each kernel region's output
  array as its layer of the arrays the region finds; KernelValue follows the buffer contents through the five stretches
  of the kernel's program; RefValue reads the reference's composed term; FiniteInputs turns the precondition into
  real-valued inputs; GcnBridge is the algebra.  The three frames are the generated ones; the idealization rewrote
  nothing, so `preserves` is trivial.
-/
import proofs.«157947_g18906446037451_cont_8to1_851_2_alg».proof.Defs
import proofs.«157947_g18906446037451_cont_8to1_851_2_alg».proof.Proof.Gen.Kernel
import proofs.«157947_g18906446037451_cont_8to1_851_2_alg».proof.Proof.Gen.Kernel.Frame
import proofs.«157947_g18906446037451_cont_8to1_851_2_alg».proof.Proof.Gen.KernelIdeal
import proofs.«157947_g18906446037451_cont_8to1_851_2_alg».proof.Proof.Gen.KernelIdeal.Frame
import proofs.«157947_g18906446037451_cont_8to1_851_2_alg».proof.Proof.Gen.ReferenceIdeal
import proofs.«157947_g18906446037451_cont_8to1_851_2_alg».proof.Proof.Gen.ReferenceIdeal.Run
import proofs.«157947_g18906446037451_cont_8to1_851_2_alg».proof.Proof.Gen.Pre_finite_inputs
import proofs.«157947_g18906446037451_cont_8to1_851_2_alg».proof.Proof.KernelValue
import proofs.«157947_g18906446037451_cont_8to1_851_2_alg».proof.Proof.RefValue
import proofs.«157947_g18906446037451_cont_8to1_851_2_alg».proof.Proof.FiniteInputs
import proofs.«157947_g18906446037451_cont_8to1_851_2_alg».proof.Proof.GcnBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at their specification of the arguments; the arguments agree, are real-valued
    by the precondition, and on real-valued arguments the two specifications are one function. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6⟩ := hagree c
  rw [a0, a1, a2, a3, a4, a5, a6]
  obtain ⟨f0, f1, f2, f3, f4, f5, f6⟩ := Cert.FiniteInputs.finite_of_pre _ _ _ _ _ _ _ (hpre c)
  exact (Gcn.kernelSpec_eq_refSpec _ _ _ _ _ _ _ f0 f1 f2 f3 f4 f5 f6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
